-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S1600000 : Shape := ⟨1, ![1600000]⟩
abbrev S100x32 : Shape := ⟨2, ![100, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x10 : Shape := ⟨2, ![8, 10]⟩
abbrev S10 : Shape := ⟨1, ![10]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100x32 : S_.BroadcastsInDim S100x32 (![] : Fin 0 → Fin S100x32.rank)
  reducesTo_S100x32_S_d0_1 : S100x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x10 : S_.BroadcastsInDim S8x10 (![] : Fin 0 → Fin S8x10.rank)
  reducesTo_S8x10_S_d0_1 : S8x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S8 .f32) (main_arg9 : FVec F S8x10 .f32) (main_arg10 : FVec F S10 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8x10 .f32 := Host.absf main_arg9
  let main_cst_14 : FVec F S_ .f32 := constant S_ .f32 0x7F800000#32
  let main_v40 : FVec F S8x10 .f32 := broadcastInDim S8x10 ![] bcast_S_S8x10 main_cst_14
  let main_v41 : IVec S8x10 1 := cmpf .olt main_v39 main_v40
  let main_c_15 : IVec S_ 1 := constantI S_ 1 1#1
  let main_v42 : IVec S_ 1 := (fun x v => Host.reduce IntOp.andi x v reducesTo_S8x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg5 : FVec F S32x16 .f32) (main_arg6 : FVec F S16 .f32) (main_arg7 : FVec F S16x8 .f32) (main_arg8 : FVec F S8 .f32) (main_arg9 : FVec F S8x10 .f32) (main_arg10 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x8 .f32 := Host.absf main_arg7
  let main_cst_10 : FVec F S_ .f32 := constant S_ .f32 0x7F800000#32
  let main_v30 : FVec F S16x8 .f32 := broadcastInDim S16x8 ![] bcast_S_S16x8 main_cst_10
  let main_v31 : IVec S16x8 1 := cmpf .olt main_v29 main_v30
  let main_c_11 : IVec S_ 1 := constantI S_ 1 1#1
  let main_v32 : IVec S_ 1 := (fun x v => Host.reduce IntOp.andi x v reducesTo_S16x8_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x100 .f32) (main_arg1 : IVec S2x1600000 32) (main_arg2 : FVec F S1600000 .f32) (main_arg3 : FVec F S100x32 .f32) (main_arg4 : FVec F S32 .f32) (main_arg5 : FVec F S32x16 .f32) (main_arg6 : FVec F S16 .f32) (main_arg7 : FVec F S16x8 .f32) (main_arg8 : FVec F S8 .f32) (main_arg9 : FVec F S8x10 .f32) (main_arg10 : FVec F S10 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100x32 .f32 := Host.absf main_arg3
  let main_cst_2 : FVec F S_ .f32 := constant S_ .f32 0x7F800000#32
  let main_v10 : FVec F S100x32 .f32 := broadcastInDim S100x32 ![] bcast_S_S100x32 main_cst_2
  let main_v11 : IVec S100x32 1 := cmpf .olt main_v9 main_v10
  let main_c_3 : IVec S_ 1 := constantI S_ 1 1#1
  let main_v12 : IVec S_ 1 := (fun x v => Host.reduce IntOp.andi x v reducesTo_S100x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S100000x100 : Shape := ⟨2, ![100000, 100]⟩
abbrev S2x1600000 : Shape := ⟨2, ![2, 1600000]⟩
abbrev S1600000 : Shape := ⟨1, ![1600000]⟩
abbrev S100x32 : Shape := ⟨2, ![100, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x10 : Shape := ⟨2, ![8, 10]⟩
abbrev S10 : Shape := ⟨1, ![10]⟩
abbrev S100000x32 : Shape := ⟨2, ![100000, 32]⟩
abbrev S2000x100 : Shape := ⟨2, ![2000, 100]⟩
abbrev S2000x32 : Shape := ⟨2, ![2000, 32]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S1x16 : Shape := ⟨2, ![1, 16]⟩
abbrev S1x8 : Shape := ⟨2, ![1, 8]⟩
abbrev S1x10 : Shape := ⟨2, ![1, 10]⟩
abbrev S100000x10 : Shape := ⟨2, ![100000, 10]⟩
abbrev S2000x10 : Shape := ⟨2, ![2000, 10]⟩
abbrev S2000x16 : Shape := ⟨2, ![2000, 16]⟩
abbrev S2000x8 : Shape := ⟨2, ![2000, 8]⟩
abbrev S2000 : Shape := ⟨1, ![2000]⟩
abbrev S2000x1 : Shape := ⟨2, ![2000, 1]⟩

abbrev nBuf : Space → Nat
  | .hbm => 69
  | .vmem => 16
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S1600000, .f32⟩
  | .hbm, ⟨3, _⟩ => ⟨S100x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x8, .f32⟩
  | .hbm, ⟨8, _⟩ => ⟨S8, .f32⟩
  | .hbm, ⟨9, _⟩ => ⟨S8x10, .f32⟩
  | .hbm, ⟨10, _⟩ => ⟨S10, .f32⟩
  | .hbm, ⟨11, _⟩ => ⟨S100000x32, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x32, .f32⟩
  | .hbm, ⟨57, _⟩ => ⟨S1700000x1, .f32⟩
  | .hbm, ⟨58, _⟩ => ⟨S1700000x32, .f32⟩
  | .hbm, ⟨59, _⟩ => ⟨S1700000x32, .f32⟩
  | .hbm, ⟨60, _⟩ => ⟨S_, .f32⟩
  | .hbm, ⟨61, _⟩ => ⟨S100000x32, .f32⟩
  | .hbm, ⟨62, _⟩ => ⟨S1700000x1, .i32⟩
  | .hbm, ⟨63, _⟩ => ⟨S100000x32, .f32⟩
  | .hbm, ⟨64, _⟩ => ⟨S1x32, .f32⟩
  | .hbm, ⟨65, _⟩ => ⟨S1x16, .f32⟩
  | .hbm, ⟨66, _⟩ => ⟨S1x8, .f32⟩
  | .hbm, ⟨67, _⟩ => ⟨S1x10, .f32⟩
  | .hbm, ⟨68, _⟩ => ⟨S100000x10, .f32⟩
  | .local _ .vmem, ⟨0, _⟩ => ⟨S2000x100, .f32⟩
  | .local _ .vmem, ⟨1, _⟩ => ⟨S2000x100, .f32⟩
  | .local _ .vmem, ⟨2, _⟩ => ⟨S100x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S1x32, .f32⟩
  | .local _ .vmem, ⟨8, _⟩ => ⟨S32x16, .f32⟩
  | .local _ .vmem, ⟨9, _⟩ => ⟨S1x16, .f32⟩
  | .local _ .vmem, ⟨10, _⟩ => ⟨S16x8, .f32⟩
  | .local _ .vmem, ⟨11, _⟩ => ⟨S1x8, .f32⟩
  | .local _ .vmem, ⟨12, _⟩ => ⟨S8x10, .f32⟩
  | .local _ .vmem, ⟨13, _⟩ => ⟨S1x10, .f32⟩
  | .local _ .vmem, ⟨14, _⟩ => ⟨S2000x10, .f32⟩
  | .local _ .vmem, ⟨15, _⟩ => ⟨S2000x10, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem8_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x10 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S2000x100_S2000x100_0_0 : ∀ a, (![0, 0] : Fin 2 → Nat) a + S2000x100.size a ≤ S2000x100.size a
  h_S2000x100 : 0 < S2000x100.numel
  bitsLt_bf16_f32 : FTy.bits .bf16 < FTy.bits .f32
  inb_S100x32_S100x32_0_0 : ∀ a, (![0, 0] : Fin 2 → Nat) a + S100x32.size a ≤ S100x32.size a
  h_S100x32 : 0 < S100x32.numel
  inb_S2000x32_S2000x32_0_0 : ∀ a, (![0, 0] : Fin 2 → Nat) a + S2000x32.size a ≤ S2000x32.size a
  h_S2000x32 : 0 < S2000x32.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S16_S1x16 : S16.ShapeCasts S1x16
  shapeCasts_S8_S1x8 : S8.ShapeCasts S1x8
  shapeCasts_S10_S1x10 : S10.ShapeCasts S1x10
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S8x10_S8x10_0_0 : ∀ a, (![0, 0] : Fin 2 → Nat) a + S8x10.size a ≤ S8x10.size a
  h_S8x10 : 0 < S8x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  reduces_S2000x10_S2000 : S2000x10.Reduces [1] S2000
  shapeCasts_S2000_S2000x1 : S2000.ShapeCasts S2000x1
  broadcasts_S2000x1_S2000x10 : S2000x1.Broadcasts S2000x10
  inb_S2000x10_S2000x10_0_0 : ∀ a, (![0, 0] : Fin 2 → Nat) a + S2000x10.size a ≤ S2000x10.size a
  h_S2000x10 : 0 < S2000x10.numel
  dot_S2000x100_S100x32_S2000x32_1_0_0_1_n_n_wf : DotDims.WF S2000x100 S100x32 S2000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S2000x32_S32x16_S2000x16_1_0_0_1_n_n_wf : DotDims.WF S2000x32 S32x16 S2000x16 [1] [0] [0] [1] [] []
  dot_S2000x16_S16x8_S2000x8_1_0_0_1_n_n_wf : DotDims.WF S2000x16 S16x8 S2000x8 [1] [0] [0] [1] [] []
  dot_S2000x8_S8x10_S2000x10_1_0_0_1_n_n_wf : DotDims.WF S2000x8 S8x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x100.size a ≤ S100000x100.size a
  hwx0_0 : ∀ i : grid0.Coords, EltTy.bits .f32 = 32 ∨ (Rect.block (s := S100000x100) S2000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x32.size a ≤ S100x32.size a
  hwx0_1 : ∀ i : grid0.Coords, EltTy.bits .f32 = 32 ∨ (Rect.block (s := S100x32) S100x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x8.size a ≤ S16x8.size a
  hwx1_4 : ∀ i : grid1.Coords, EltTy.bits .f32 = 32 ∨ (Rect.block (s := S16x8) S16x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x8.size a ≤ S1x8.size a
  hwx1_5 : ∀ i : grid1.Coords, EltTy.bits .f32 = 32 ∨ (Rect.block (s := S1x8) S1x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x10.size a ≤ S8x10.size a
  hwx1_6 : ∀ i : grid1.Coords, EltTy.bits .f32 = 32 ∨ (Rect.block (s := S8x10) S8x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x10.size a ≤ S1x10.size a
  hwx1_7 : ∀ i : grid1.Coords, EltTy.bits .f32 = 32 ∨ (Rect.block (s := S1x10) S1x10.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x10.size a ≤ S100000x10.size a
  hwx1_8 : ∀ i : grid1.Coords, EltTy.bits .f32 = 32 ∨ (Rect.block (s := S100000x10) S2000x10.size (cc1_transform_8 i) (hinb1_8 i)).WholeWords (EltTy.packing .f32)

variable [Facts₀]

def dot_S2000x100_S100x32_S2000x32_1_0_0_1_n_n : DotDims S2000x100 S100x32 S2000x32 where
  lhsContracting := [1]
  rhsContracting := [0]
  lhsNonContracting := [0]
  rhsNonContracting := [1]
  lhsBatch := []
  rhsBatch := []
  wf := dot_S2000x100_S100x32_S2000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def dot_S2000x16_S16x8_S2000x8_1_0_0_1_n_n : DotDims S2000x16 S16x8 S2000x8 where
  lhsContracting := [1]
  rhsContracting := [0]
  lhsNonContracting := [0]
  rhsNonContracting := [1]
  lhsBatch := []
  rhsBatch := []
  wf := dot_S2000x16_S16x8_S2000x8_1_0_0_1_n_n_wf
def dot_S2000x8_S8x10_S2000x10_1_0_0_1_n_n : DotDims S2000x8 S8x10 S2000x10 where
  lhsContracting := [1]
  rhsContracting := [0]
  lhsNonContracting := [0]
  rhsNonContracting := [1]
  lhsBatch := []
  rhsBatch := []
  wf := dot_S2000x8_S8x10_S2000x10_1_0_0_1_n_n_wf

abbrev win0_0 : Pipeline.Window sig grid0 :=
  Pipeline.Window.ofSpec (Memref.whole main_arg0) S2000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S100x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S16x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S8x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S2000x10.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S1600000 : Shape := ⟨1, ![1600000]⟩
abbrev S100x32 : Shape := ⟨2, ![100, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x10 : Shape := ⟨2, ![8, 10]⟩
abbrev S10 : Shape := ⟨1, ![10]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x16 : Shape := ⟨2, ![100000, 16]⟩
abbrev S1x16 : Shape := ⟨2, ![1, 16]⟩
abbrev S100000x8 : Shape := ⟨2, ![100000, 8]⟩
abbrev S1x8 : Shape := ⟨2, ![1, 8]⟩
abbrev S100000x10 : Shape := ⟨2, ![100000, 10]⟩
abbrev S1x10 : Shape := ⟨2, ![1, 10]⟩
abbrev S100000x1 : Shape := ⟨2, ![100000, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S1600000, .f32⟩
  | .hbm, ⟨3, _⟩ => ⟨S100x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x8, .f32⟩
  | .hbm, ⟨8, _⟩ => ⟨S8, .f32⟩
  | .hbm, ⟨9, _⟩ => ⟨S8x10, .f32⟩
  | .hbm, ⟨10, _⟩ => ⟨S10, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x32, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x32, .f32⟩
  | .hbm, ⟨57, _⟩ => ⟨S1700000x1, .f32⟩
  | .hbm, ⟨58, _⟩ => ⟨S1700000x32, .f32⟩
  | .hbm, ⟨59, _⟩ => ⟨S1700000x32, .f32⟩
  | .hbm, ⟨60, _⟩ => ⟨S_, .f32⟩
  | .hbm, ⟨61, _⟩ => ⟨S100000x32, .f32⟩
  | .hbm, ⟨62, _⟩ => ⟨S1700000x1, .i32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S_, .f32⟩
  | .hbm, ⟨68, _⟩ => ⟨S100000x32, .f32⟩
  | .hbm, ⟨69, _⟩ => ⟨S100000x32, .f32⟩
  | .hbm, ⟨70, _⟩ => ⟨S100000x16, .f32⟩
  | .hbm, ⟨71, _⟩ => ⟨S1x16, .f32⟩
  | .hbm, ⟨72, _⟩ => ⟨S100000x16, .f32⟩
  | .hbm, ⟨73, _⟩ => ⟨S100000x16, .f32⟩
  | .hbm, ⟨74, _⟩ => ⟨S_, .f32⟩
  | .hbm, ⟨75, _⟩ => ⟨S100000x16, .f32⟩
  | .hbm, ⟨76, _⟩ => ⟨S100000x16, .f32⟩
  | .hbm, ⟨77, _⟩ => ⟨S100000x8, .f32⟩
  | .hbm, ⟨78, _⟩ => ⟨S1x8, .f32⟩
  | .hbm, ⟨79, _⟩ => ⟨S100000x8, .f32⟩
  | .hbm, ⟨80, _⟩ => ⟨S100000x8, .f32⟩
  | .hbm, ⟨81, _⟩ => ⟨S_, .f32⟩
  | .hbm, ⟨82, _⟩ => ⟨S100000x8, .f32⟩
  | .hbm, ⟨83, _⟩ => ⟨S100000x8, .f32⟩
  | .hbm, ⟨84, _⟩ => ⟨S100000x10, .f32⟩
  | .hbm, ⟨85, _⟩ => ⟨S1x10, .f32⟩
  | .hbm, ⟨86, _⟩ => ⟨S100000x10, .f32⟩
  | .hbm, ⟨87, _⟩ => ⟨S100000x10, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x10, .f32⟩
  | .hbm, ⟨95, _⟩ => ⟨S100000x10, .f32⟩
  | .hbm, ⟨96, _⟩ => ⟨S100000x10, .f32⟩
  | .hbm, ⟨97, _⟩ => ⟨S_, .f32⟩
  | .hbm, ⟨98, _⟩ => ⟨S100000, .f32⟩
  | .hbm, ⟨99, _⟩ => ⟨S100000x1, .f32⟩
  | .hbm, ⟨100, _⟩ => ⟨S100000x1, .f32⟩
  | .hbm, ⟨101, _⟩ => ⟨S100000x10, .f32⟩
  | .hbm, ⟨102, _⟩ => ⟨S100000x10, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call2_cst : Ref sig .tc := ⟨.hbm, 81, rfl⟩
abbrev main_call2_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call3_cst : Ref sig .tc := ⟨.hbm, 88, rfl⟩
abbrev main_call3_v0 : Ref sig .tc := ⟨.hbm, 89, rfl⟩
abbrev main_call3_cst_0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_cst_1 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_v61 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x100_S100x32_S100000x32_1_0_0_1_n_n_wf : DotDims.WF S100000x100 S100x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  dot_S100000x16_S16x8_S100000x8_1_0_0_1_n_n_wf : DotDims.WF S100000x16 S16x8 S100000x8 [1] [0] [0] [1] [] []
  dot_S100000x8_S8x10_S100000x10_1_0_0_1_n_n_wf : DotDims.WF S100000x8 S8x10 S100000x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x100_S100x32_S100000x32_1_0_0_1_n_n : DotDims S100000x100 S100x32 S100000x32 where
  lhsContracting := [1]
  rhsContracting := [0]
  lhsNonContracting := [0]
  rhsNonContracting := [1]
  lhsBatch := []
  rhsBatch := []
  wf := dot_S100000x100_S100x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def dot_S100000x8_S8x10_S100000x10_1_0_0_1_n_n : DotDims S100000x8 S8x10 S100000x10 where
  lhsContracting := [1]
  rhsContracting := [0]
  lhsNonContracting := [0]
  rhsNonContracting := [1]
  lhsBatch := []
  rhsBatch := []
  wf := dot_S100000x8_S8x10_S100000x10_1_0_0_1_n_n_wf

class Facts : Prop extends Facts₀ where

variable [Facts]
-- ==== Proof.Spec.lean ====
/-
  The network's head, one node (one row) at a time, on the extended reals.

  A node's 32 aggregated features `a` go through: bias and rectifier; three dense layers
  `x ↦ x · W + b` with a rectifier after the first two; and a log-softmax over the 10 logits,
  `z_j - M - log (∑_k exp (z_k - M))` with `M` the largest logit.  Every step acts on a row alone,
  so the same function describes a block of rows and the whole array.

  The two f32 words that occur (zero, and minus infinity as the start of the maximum) are kept
  as the words themselves: both programs carry the same words, so they are never evaluated.
-/
import Idealize.ShloMosaic.PureOps.Ideal
import Idealize.ShloMosaic.Lib.ValueIdx
import Mathlib.Data.Finset.Fold

noncomputable section

namespace Cert.Spec

open Idealize.ShloMosaic

/-- The f32 word of `0.0`, read on the extended reals. -/
abbrev zero32 : EReal := Ideal.ofBits .f32 0x00000000#32
/-- The f32 word of `-∞`, read on the extended reals. -/
abbrev negInf32 : EReal := Ideal.ofBits .f32 0xFF800000#32

/-- The rectifier on a row: `max (a k) 0`. -/
def relu {p : Nat} (a : Fin p → EReal) : Fin p → EReal := fun k => max (a k) zero32

/-- A dense layer on a row: `(a · W) j + b j`. -/
def dense {p q : Nat} (a : Fin p → EReal) (W : Fin p → Fin q → EReal) (b : Fin q → EReal) : Fin q → EReal :=
  fun j => (∑ k : Fin p, a k * W k j) + b j

/-- A row's largest entry, as the fold of `max` from `-∞`. -/
def rowMax {q : Nat} (a : Fin q → EReal) : EReal := (Finset.univ : Finset (Fin q)).fold max negInf32 a

/-- Log-softmax of a row, shifted by its largest entry. -/
def logSoftmax {q : Nat} (a : Fin q → EReal) : Fin q → EReal :=
  fun j => (a j - rowMax a) - Ideal.log (∑ k : Fin q, Ideal.exp (a k - rowMax a))

/-- The head on one node's aggregated features. -/
def head (a : Fin 32 → EReal) (bc : Fin 32 → EReal) (W1 : Fin 32 → Fin 16 → EReal) (b1 : Fin 16 → EReal)
    (W2 : Fin 16 → Fin 8 → EReal) (b2 : Fin 8 → EReal) (W3 : Fin 8 → Fin 10 → EReal) (b3 : Fin 10 → EReal) :
    Fin 10 → EReal :=
  logSoftmax (dense (relu (dense (relu (dense (relu (fun k => a k + bc k)) W1 b1)) W2 b2)) W3 b3)

/-- The fold of `max` from a start value is at least that value, so taking `max` with the start
    value once more changes nothing. -/
theorem max_start_fold {q : Nat} (c : EReal) (a : Fin q → EReal) :
    max c ((Finset.univ : Finset (Fin q)).fold max c a) = (Finset.univ : Finset (Fin q)).fold max c a :=
  max_eq_right ((Finset.le_fold_max c).mpr (Or.inl le_rfl))

/-- The input projection at one entry: row `i` of `x` against column `j` of `W`. -/
def proj {n p q : Nat} (x : Fin n → Fin p → EReal) (W : Fin p → Fin q → EReal) (i : Fin n) (j : Fin q) : EReal :=
  ∑ k : Fin p, x i k * W k j

end Cert.Spec

end
-- ==== Proof.KernelHead.lean ====
/-
  The two kernel bodies' stored values, read at one entry of the block.

  The projection kernel stores, at row `r` and column `j` of its block, the product of row `r` of the
  loaded `x` block with column `j` of `W` (the bf16 casts are the identity on the extended reals and
  the accumulator is the zero splat).  The head kernel stores, at row `r`, the head of `Spec.head` applied
  to row `r` of the loaded block of aggregated features and to the parameters it loads whole.
-/
import proofs.«144485_j3616362463494_1_alg».proof.Proof.Gen.KernelIdeal.Skeleton
import proofs.«144485_j3616362463494_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Head

open Cert.KernelIdeal Cert.KernelIdeal.Gen Idealize.ShloMosaic Idealize.ShloMosaic.ValueIdx

/-- A plain `M×K` by `K×N` product with the zero accumulator, read at row `r`, column `j`: the sum over the `K`
    contracted coordinates of the products of the operands' entries. -/
private theorem plain_apply {M K N : Nat} {φ₁ φ₂ : FTy} (lhs : FVec Ideal ⟨2, ![M, K]⟩ φ₁) (rhs : FVec Ideal ⟨2, ![K, N]⟩ φ₂)
    (r : Fin M) (j : Fin N) :
    matmul (F := Ideal) (DotDims.plain M K N) none lhs rhs (constant ⟨2, ![M, N]⟩ .f32 0x00000000#32) (ix2 r j)
      = ∑ k : Fin K, lhs (ix2 r k) * rhs (ix2 k j) := by
  refine (Ideal.matmul_constant_zero_apply (DotDims.plain M K N) none lhs rhs (ix2 r j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r j) ((contrEquiv1 (DotDims.plain M K N) K rfl rfl).symm k) = ix2 k j :=
    funext fun a => Fin.ext (by
      match a with
      | ⟨0, _⟩ => exact hk
      | ⟨1, _⟩ => rfl)
  rw [el, er]

/-- The projection kernel's stored value at row `r`, column `j` of its block. -/
theorem conv_apply (x0 : Vec Ideal S2000x100 .f32) (x1 : Vec Ideal S100x32 .f32) (r : Fin 2000) (j : Fin 32) :
    k0_pay1 (F := Ideal) x0 x1 (ix2 r j)
      = Cert.Spec.proj (fun (r : Fin 2000) (k : Fin 100) => (x0 (ix2 r k) : EReal)) (fun (k : Fin 100) (j : Fin 32) => (x1 (ix2 k j) : EReal)) r j := by
  -- the two format changes are the identity and the record is the plain product's
  unfold k0_pay1 Cert.Spec.proj
  exact plain_apply (M := 2000) (K := 100) (N := 32) _ _ r j

/-- A `[1, b]` parameter, cast to its own shape and broadcast over the rows, read at `(r, j)`: its entry `j`. -/
private theorem bias_apply {a b : Nat} {α : Type} (v : (⟨2, ![1, b]⟩ : Shape).Idx → α) (hc : (⟨2, ![1, b]⟩ : Shape).ShapeCasts ⟨2, ![1, b]⟩)
    (hb : (⟨2, ![1, b]⟩ : Shape).Broadcasts ⟨2, ![a, b]⟩) (r : Fin a) (j : Fin b) :
    broadcastTo ⟨2, ![a, b]⟩ (shapeCast ⟨2, ![1, b]⟩ v hc) hb (ix2 r j) = v (ix2 (0 : Fin 1) j) := by
  rw [shapeCast_self]
  exact broadcastTo_1b_ab_apply v hb r j

/-- An `[a]` vector cast to the column `[a, 1]` reads, at `(r, u)`, its entry `r`. -/
private theorem shapeCast_a_a1_apply {a : Nat} {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, j)`, the column's entry `r`. -/
private theorem broadcastTo_a1_ab_apply {a b : Nat} {α : Type} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The index over row `r` with `k` inserted on axis 1 is `(r, k)`. -/
private theorem lift_ix1 {a b : Nat} (h : (⟨2, ![a, b]⟩ : Shape).Reduces [1] ⟨1, ![a]⟩) (r : Fin a) (k : Fin b) :
    h.lift (ix1 r) k = ix2 r k :=
  funext fun c => Fin.ext (by
    match c with
    | ⟨0, _⟩ => rfl
    | ⟨1, _⟩ => rfl)

/-- A row's maximum reduction over axis 1, read at row `r`: the fold of `max` from the start word over the row's entries. -/
private theorem rowMax_apply {a b : Nat} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction (F := Ideal) .maximumf [1] ⟨1, ![a]⟩ v acc h hφ hacc (ix1 r)
      = (Finset.univ : Finset (Fin b)).fold max (Ideal.ofBits φ acc) (fun k => v (ix2 r k)) := by
  refine (Ideal.multiReduction_maximumf_single v acc h hφ hacc (ix1 r)).trans ?_
  congr 1
  funext k
  exact congrArg v (lift_ix1 h r k)

/-- A row's sum reduction over axis 1, read at row `r`: the sum of the row's entries. -/
private theorem rowSum_apply {a b : Nat} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ v acc h hφ hacc (ix1 r) = ∑ k : Fin b, v (ix2 r k) := by
  refine (Ideal.multiReduction_add_single v acc h hφ hacc (ix1 r)).trans ?_
  refine Finset.sum_congr rfl fun k _ => ?_
  exact congrArg v (lift_ix1 h r k)

/-- An `[a]` vector cast to a column and broadcast over `b` columns reads, at `(r, j)`, its entry `r`. -/
private theorem col_apply {a b : Nat} {α : Type} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (r : Fin a) (j : Fin b) :
    broadcastTo ⟨2, ![a, b]⟩ (shapeCast ⟨2, ![a, 1]⟩ x hc) hb (ix2 r j) = x (ix1 r) :=
  (broadcastTo_a1_ab_apply _ hb r j).trans (shapeCast_a_a1_apply x hc r 0)

/-- The same with the logarithm taken on the column. -/
private theorem logCol_apply {a b : Nat} {φ : FTy} (x : FVec Ideal ⟨1, ![a]⟩ φ) (hc : (⟨1, ![a]⟩ : Shape).ShapeCasts ⟨2, ![a, 1]⟩)
    (hb : (⟨2, ![a, 1]⟩ : Shape).Broadcasts ⟨2, ![a, b]⟩) (r : Fin a) (j : Fin b) :
    broadcastTo ⟨2, ![a, b]⟩ (log (shapeCast ⟨2, ![a, 1]⟩ x hc)) hb (ix2 r j) = Ideal.log (x (ix1 r)) :=
  (broadcastTo_a1_ab_apply _ hb r j).trans (congrArg Ideal.log (shapeCast_a_a1_apply x hc r 0))

/-- The shifted log-softmax of a block, row by row: at `(r, j)` it is row `r`'s entry `j` less the row's maximum `M`, less the
    logarithm of the row's sum of `exp (· - M)`. -/
private theorem logSoftmax_rows {a b : Nat} {φ : FTy} (v : FVec Ideal ⟨2, ![a, b]⟩ φ) (wm ws : BitVec φ.bits)
    (hr : (⟨2, ![a, b]⟩ : Shape).Reduces [1] ⟨1, ![a]⟩) (hφ : FKind.Formats φ)
    (hm : wm = FKind.maximumf.neutral φ hφ) (hs : ws = FKind.add.neutral φ hφ)
    (hc : (⟨1, ![a]⟩ : Shape).ShapeCasts ⟨2, ![a, 1]⟩) (hb : (⟨2, ![a, 1]⟩ : Shape).Broadcasts ⟨2, ![a, b]⟩) (r : Fin a) (j : Fin b) :
    subf (subf v (broadcastTo ⟨2, ![a, b]⟩ (shapeCast ⟨2, ![a, 1]⟩ (multiReduction (F := Ideal) .maximumf [1] ⟨1, ![a]⟩ v wm hr hφ hm) hc) hb))
        (broadcastTo ⟨2, ![a, b]⟩ (log (shapeCast ⟨2, ![a, 1]⟩
          (multiReduction (F := Ideal) .add [1] ⟨1, ![a]⟩
            (exp (subf v (broadcastTo ⟨2, ![a, b]⟩ (shapeCast ⟨2, ![a, 1]⟩ (multiReduction (F := Ideal) .maximumf [1] ⟨1, ![a]⟩ v wm hr hφ hm) hc) hb)))
            ws hr hφ hs) hc)) hb) (ix2 r j)
      = (v (ix2 r j) - (Finset.univ : Finset (Fin b)).fold max (Ideal.ofBits φ wm) (fun k => v (ix2 r k)))
          - Ideal.log (∑ k : Fin b, Ideal.exp (v (ix2 r k) - (Finset.univ : Finset (Fin b)).fold max (Ideal.ofBits φ wm) (fun k => v (ix2 r k)))) := by
  have hM : ∀ c : Fin b, broadcastTo ⟨2, ![a, b]⟩ (shapeCast ⟨2, ![a, 1]⟩ (multiReduction (F := Ideal) .maximumf [1] ⟨1, ![a]⟩ v wm hr hφ hm) hc) hb (ix2 r c)
      = (Finset.univ : Finset (Fin b)).fold max (Ideal.ofBits φ wm) (fun k => v (ix2 r k)) :=
    fun c => (col_apply _ hc hb r c).trans (rowMax_apply v wm hr hφ hm r)
  rw [subf_apply, subf_apply, hM, logCol_apply, rowSum_apply]
  refine congrArg (fun t => _ - Ideal.log t) (Finset.sum_congr rfl fun k _ => ?_)
  show Ideal.exp (v (ix2 r k) - _) = _
  rw [hM]

/-- The log-softmax payload at row `r`, column `j`: `Spec.logSoftmax` of row `r` of its operand. -/
private theorem lsm_apply (v : FVec Ideal S2000x10 .f32) (r : Fin 2000) (j : Fin 10) :
    k1_pay1 (F := Ideal) v (ix2 r j) = Cert.Spec.logSoftmax (fun k : Fin 10 => (v (ix2 r k) : EReal)) j := by
  unfold k1_pay1 Cert.Spec.logSoftmax Cert.Spec.rowMax Cert.Spec.negInf32
  exact logSoftmax_rows (a := 2000) (b := 10) v _ _ _ _ _ _ _ _ r j

/-- The rectifier against the broadcast zero word, at `(r, k)`: `Spec.relu` of the row `r`. -/
private theorem relu_apply {a p : Nat} (v : FVec Ideal ⟨2, ![a, p]⟩ .f32) (v' : Fin p → EReal) (r : Fin a)
    (hv : ∀ k : Fin p, v (ix2 r k) = v' k) (k : Fin p) :
    maximumf v (broadcast ⟨2, ![a, p]⟩ (Scalar.ofBits (F := Ideal) .f32 0x00000000#32)) (ix2 r k) = Cert.Spec.relu v' k := by
  show max (v (ix2 r k)) (Ideal.ofBits .f32 0x00000000#32) = max (v' k) Cert.Spec.zero32
  rw [hv]

/-- A dense layer of the block, at `(r, j)`: `Spec.dense` of row `r` of its input against the weights and the bias row. -/
private theorem dense_apply {a p q : Nat} (x : FVec Ideal ⟨2, ![a, p]⟩ .f32) (W : FVec Ideal ⟨2, ![p, q]⟩ .f32) (bias : FVec Ideal ⟨2, ![1, q]⟩ .f32)
    (x' : Fin p → EReal) (hlt : FTy.bits .bf16 < FTy.bits .f32)
    (hc : (⟨2, ![1, q]⟩ : Shape).ShapeCasts ⟨2, ![1, q]⟩) (hb : (⟨2, ![1, q]⟩ : Shape).Broadcasts ⟨2, ![a, q]⟩) (r : Fin a)
    (hx : ∀ k : Fin p, x (ix2 r k) = x' k) (j : Fin q) :
    addf (matmul (F := Ideal) (DotDims.plain a p q) none (truncf .bf16 x hlt) (truncf .bf16 W hlt) (constant ⟨2, ![a, q]⟩ .f32 0x00000000#32))
        (broadcastTo ⟨2, ![a, q]⟩ (shapeCast ⟨2, ![1, q]⟩ bias hc) hb) (ix2 r j)
      = Cert.Spec.dense x' (fun (l : Fin p) (k : Fin q) => (W (ix2 l k) : EReal)) (fun k : Fin q => (bias (ix2 (0 : Fin 1) k) : EReal)) j := by
  rw [addf_apply, plain_apply, bias_apply]
  unfold Cert.Spec.dense
  refine congrArg (· + _) (Finset.sum_congr rfl fun k _ => ?_)
  show x (ix2 r k) * W (ix2 k j) = _
  rw [hx]

/-- The first step of the head, at `(r, k)`: the input's entry plus the bias row's. -/
private theorem biasAdd_apply {a p : Nat} (x : FVec Ideal ⟨2, ![a, p]⟩ .f32) (bias : FVec Ideal ⟨2, ![1, p]⟩ .f32)
    (hcx : (⟨2, ![a, p]⟩ : Shape).ShapeCasts ⟨2, ![a, p]⟩) (hc : (⟨2, ![1, p]⟩ : Shape).ShapeCasts ⟨2, ![1, p]⟩)
    (hb : (⟨2, ![1, p]⟩ : Shape).Broadcasts ⟨2, ![a, p]⟩) (r : Fin a) (k : Fin p) :
    addf (shapeCast ⟨2, ![a, p]⟩ x hcx) (broadcastTo ⟨2, ![a, p]⟩ (shapeCast ⟨2, ![1, p]⟩ bias hc) hb) (ix2 r k)
      = x (ix2 r k) + bias (ix2 (0 : Fin 1) k) := by
  rw [addf_apply, shapeCast_self, bias_apply]

/-- The head kernel's stored value at row `r`, column `j` of its block. -/
theorem head_apply (x0 : Vec Ideal S2000x32 .f32) (x1 : Vec Ideal S1x32 .f32) (x2 : Vec Ideal S32x16 .f32) (x3 : Vec Ideal S1x16 .f32)
    (x4 : Vec Ideal S16x8 .f32) (x5 : Vec Ideal S1x8 .f32) (x6 : Vec Ideal S8x10 .f32) (x7 : Vec Ideal S1x10 .f32) (r : Fin 2000) (j : Fin 10) :
    k1_pay1 (F := Ideal) (k1_pay2 (F := Ideal) x0 x1 x2 x3 x4 x5 x6 x7) (ix2 r j)
      = Cert.Spec.head (fun k : Fin 32 => (x0 (ix2 r k) : EReal)) (fun k : Fin 32 => (x1 (ix2 (0 : Fin 1) k) : EReal))
          (fun (l : Fin 32) (k : Fin 16) => (x2 (ix2 l k) : EReal)) (fun k : Fin 16 => (x3 (ix2 (0 : Fin 1) k) : EReal))
          (fun (l : Fin 16) (k : Fin 8) => (x4 (ix2 l k) : EReal)) (fun k : Fin 8 => (x5 (ix2 (0 : Fin 1) k) : EReal))
          (fun (l : Fin 8) (k : Fin 10) => (x6 (ix2 l k) : EReal)) (fun k : Fin 10 => (x7 (ix2 (0 : Fin 1) k) : EReal)) j := by
  -- the log-softmax of row `r` of the logits; then the logits' row, layer by layer from the outermost
  refine (lsm_apply _ r j).trans ?_
  unfold Cert.Spec.head
  refine congrArg (fun z => Cert.Spec.logSoftmax z j) (funext fun c => ?_)
  unfold k1_pay2
  exact dense_apply (a := 2000) (p := 8) (q := 10) _ _ _ _ _ _ _ r
    (relu_apply (a := 2000) (p := 8) _ _ r
      (dense_apply (a := 2000) (p := 16) (q := 8) _ _ _ _ _ _ _ r
        (relu_apply (a := 2000) (p := 16) _ _ r
          (dense_apply (a := 2000) (p := 32) (q := 16) _ _ _ _ _ _ _ r
            (relu_apply (a := 2000) (p := 32) _ _ r
              (biasAdd_apply (a := 2000) (p := 32) _ _ _ _ _ r)))))) c

end Cert.KernelIdeal.Head

end
-- ==== Proof.Blocks.lean ====
/-
  From blocks to arrays, for both kernel regions, at whatever contents `V` the region finds in its arrays.

  Region 0 runs over 50 grid points; point `t` reads rows `2000 t … 2000 t + 1999` of `x` and the whole of `W_conv`, and
  writes the same rows of the projected features.  Its body's stored value at row `r`, column `j` of the block is the
  product of row `r` of the block with column `j` of `W_conv` (`Head.conv_apply`), which is row `2000 t + r` of `x`
  against that column: so point `t` writes block `t` of the one array `projArr`, and the 50 blocks cover the rows.

  Region 1 likewise: point `t` reads rows `2000 t …` of the aggregated features and every parameter whole, and writes the
  same rows of the result; the stored value at row `r` is `Spec.head` of row `r` of the block (`Head.head_apply`).
-/
import proofs.«144485_j3616362463494_1_alg».proof.Proof.Gen.KernelIdeal.Frame
import proofs.«144485_j3616362463494_1_alg».proof.Proof.KernelHead
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the projection -/

/-- The projected features as one function of the two arrays: entry `(i, j)` is row `i` of `x` against column `j` of `w`. -/
abbrev projArr (x : S100000x100.Idx → EReal) (w : S100x32.Idx → EReal) : S100000x32.Idx → EReal :=
  fun i => Cert.Spec.proj (fun (i : Fin 100000) (k : Fin 100) => x (ix2 i k)) (fun (k : Fin 100) (j : Fin 32) => w (ix2 k j)) (i 0) (i 1)

/-- The printed index maps over the 50 points: the `x` window and the output window sit at block row `t`, block column 0;
    the `W_conv` window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The `x` block at point `t`, row `r`, column `k` is row `2000 t + r` of `x`. -/
theorem xblk_apply (c : Dev nD) (t : Fin cfg0.N) (r : Fin 2000) (k : Fin 100) (i : Fin 100000) (hi : i.val = 2000 * t.val + r.val) :
    (iblk0 V c 0 t : Vec Ideal S2000x100 .f32) (ix2 r k) = (V c main_arg0 : S100000x100.Idx → EReal) (ix2 i k) := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t 0 * 2000 + 1 * r.val = i.val; rw [e0, hi]; omega
  | ⟨1, _⟩ => show win0_0.index t 1 * 100 + 1 * k.val = k.val; rw [e1]; omega

/-- The `W_conv` block at every point is the whole array. -/
theorem wblk_apply (c : Dev nD) (t : Fin cfg0.N) (k : Fin 100) (j : Fin 32) :
    (iblk0 V c 1 t : Vec Ideal S100x32 .f32) (ix2 k j) = (V c main_arg3 : S100x32.Idx → EReal) (ix2 k j) := by
  obtain ⟨-, -, e2, e3, -, -⟩ := idx_facts0 t
  unfold iblk0
  rw [View.read_apply]
  show V c main_arg3 _ = V c main_arg3 _
  congr 1
  funext a
  apply Fin.ext
  match a with
  | ⟨0, _⟩ => show win0_1.index t 0 * 100 + 1 * k.val = k.val; rw [e2]; omega
  | ⟨1, _⟩ => show win0_1.index t 1 * 32 + 1 * j.val = j.val; rw [e3]; omega

/-- What point `t` writes back is block `t` of `projArr`. -/
theorem flushed0_eq (c : Dev nD) (t : Fin cfg0.N) :
    (dat0 V c).flushed 2 t = ((cfg0.win 2).blk t).view.read (Elt Ideal) (projArr (V c main_arg0) (V c main_arg3)) := by
  obtain ⟨-, -, -, -, e4, e5⟩ := idx_facts0 t
  show (cfg0.win 2).cut (grid0.coords t) ((dat0 V c).after 2 t) = _
  rw [after0_2]
  unfold out0_2
  rw [View.canon_unit_zero hz]
  simp only [View.ld_unit_zero (S := S2000x100) hz, View.ld_unit_zero (S := S100x32) hz]
  funext y
  obtain ⟨r, j, rfl⟩ : ∃ (r : Fin 2000) (j : Fin 32), y = ix2 r j := ⟨y 0, y 1, eq_ix2 y⟩
  rw [View.read_apply]
  have ht : t.val < 50 := t.isLt
  have hrow : 2000 * t.val + r.val < 100000 := by have := r.isLt; omega
  have hemb : ((cfg0.win 2).blk t).view.emb (ix2 r j) = ix2 (⟨2000 * t.val + r.val, hrow⟩ : Fin 100000) j := by
    funext a
    apply Fin.ext
    match a with
    | ⟨0, _⟩ => show win0_2.index t 0 * 2000 + 1 * r.val = 2000 * t.val + r.val; rw [e4]; omega
    | ⟨1, _⟩ => show win0_2.index t 1 * 32 + 1 * j.val = j.val; rw [e5]; omega
  rw [hemb]
  refine (Cert.KernelIdeal.Head.conv_apply (iblk0 V c 0 t) (iblk0 V c 1 t) r j).trans ?_
  show Cert.Spec.proj _ _ r j
    = Cert.Spec.proj (fun (i : Fin 100000) (k : Fin 100) => (V c main_arg0 : S100000x100.Idx → EReal) (ix2 i k))
        (fun (k : Fin 100) (j : Fin 32) => (V c main_arg3 : S100x32.Idx → EReal) (ix2 k j)) (⟨2000 * t.val + r.val, hrow⟩ : Fin 100000) j
  unfold Cert.Spec.proj
  refine Finset.sum_congr rfl fun k _ => ?_
  beta_reduce
  rw [xblk_apply V c t r k ⟨2000 * t.val + r.val, hrow⟩ rfl, wblk_apply V c t k j]

/-- An index of the output array is in point `t`'s block iff each coordinate is in the block's range on its axis. -/
theorem mem_blk0 (t : Fin cfg0.N) (i : S100000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v0).slice (win0_2.rect t)).set ↔ _
  rw [View.set_slice_whole, Rect.mem_set_unit]
  exact Iff.rfl

/-- The projected features' array after region 0: `projArr` of the arrays the region found. -/
theorem final0 (c : Dev nD) : (dat0 V c).arrAt 2 cfg0.N = projArr (V c main_arg0) (V c main_arg3) :=
  (dat0 V c).arrAt_eq_of_cover 2 (projArr (V c main_arg0) (V c main_arg3)) (fun t _ => flushed0_eq V c t) fun i => by
    have hi0 : (i 0).val < 100000 := (i 0).isLt
    have hi1 : (i 1).val < 32 := (i 1).isLt
    have hN : cfg0.N = 50 := rfl
    refine ⟨⟨(i 0).val / 2000, by rw [hN]; omega⟩, flush0_2 _, ?_⟩
    rw [mem_blk0]
    obtain ⟨-, -, -, -, e4, e5⟩ := idx_facts0 ⟨(i 0).val / 2000, by rw [hN]; omega⟩
    intro a
    match a with
    | ⟨0, _⟩ => show win0_2.index _ 0 * 2000 ≤ (i 0).val ∧ (i 0).val < win0_2.index _ 0 * 2000 + 2000; rw [e4]; show (i 0).val / 2000 * 2000 ≤ (i 0).val ∧ (i 0).val < (i 0).val / 2000 * 2000 + 2000; omega
    | ⟨1, _⟩ => show win0_2.index _ 1 * 32 ≤ (i 1).val ∧ (i 1).val < win0_2.index _ 1 * 32 + 32; rw [e5]; omega

/-! ## Region 1: the head -/

/-- The result as one function of the eight arrays the region reads: row `i` is `Spec.head` of row `i` of the aggregated
    features and of the parameters (the biases as their one row). -/
abbrev headArr (a : S100000x32.Idx → EReal) (bc : S1x32.Idx → EReal) (w1 : S32x16.Idx → EReal) (b1 : S1x16.Idx → EReal)
    (w2 : S16x8.Idx → EReal) (b2 : S1x8.Idx → EReal) (w3 : S8x10.Idx → EReal) (b3 : S1x10.Idx → EReal) : S100000x10.Idx → EReal :=
  fun i => Cert.Spec.head (fun k : Fin 32 => a (ix2 (i 0) k)) (fun k : Fin 32 => bc (ix2 (0 : Fin 1) k))
    (fun (l : Fin 32) (k : Fin 16) => w1 (ix2 l k)) (fun k : Fin 16 => b1 (ix2 (0 : Fin 1) k))
    (fun (l : Fin 16) (k : Fin 8) => w2 (ix2 l k)) (fun k : Fin 8 => b2 (ix2 (0 : Fin 1) k))
    (fun (l : Fin 8) (k : Fin 10) => w3 (ix2 l k)) (fun k : Fin 10 => b3 (ix2 (0 : Fin 1) k)) (i 1)

/-- The printed index maps over the 50 points: the features' window and the output window sit at block row `t`, block
    column 0; every parameter's window at block (0, 0). -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0 :=
  (by decide +kernel : ∀ t : Fin grid1.N, _)

/-- The features' block at point `t`, row `r`, column `k` is row `2000 t + r` of the aggregated features. -/
theorem ablk_apply (c : Dev nD) (t : Fin cfg1.N) (r : Fin 2000) (k : Fin 32) (i : Fin 100000) (hi : i.val = 2000 * t.val + r.val) :
    (iblk1 V c 0 t : Vec Ideal S2000x32 .f32) (ix2 r k) = (V c main_v42 : S100000x32.Idx → EReal) (ix2 i k) := by
  obtain ⟨e0, e1, -, -, -, -, -, -, -, -, -, -, -, -, -, -, -, -⟩ := idx_facts1 t
  unfold iblk1
  rw [View.read_apply]
  show V c main_v42 _ = V c main_v42 _
  congr 1
  funext a
  apply Fin.ext
  match a with
  | ⟨0, _⟩ => show win1_0.index t 0 * 2000 + 1 * r.val = i.val; rw [e0, hi]; omega
  | ⟨1, _⟩ => show win1_0.index t 1 * 32 + 1 * k.val = k.val; rw [e1]; omega

/-! The seven parameter windows: each sits at block (0, 0) at every point and its block is the whole array, so the
    block read at `y` is the array at `y` (per axis the embedding is `0 * size + 1 * y`). -/

/-- The conv bias row `[1, 32]`. -/
theorem blk1_1_apply (c : Dev nD) (t : Fin cfg1.N) (y : S1x32.Idx) :
    (iblk1 V c 1 t : Vec Ideal S1x32 .f32) y = (V c main_v43 : S1x32.Idx → EReal) y := by
  obtain ⟨-, -, e0, e1, -, -, -, -, -, -, -, -, -, -, -, -, -, -⟩ := idx_facts1 t
  unfold iblk1
  rw [View.read_apply]
  show V c main_v43 _ = V c main_v43 _
  congr 1
  funext a
  apply Fin.ext
  match a with
  | ⟨0, _⟩ => show win1_1.index t 0 * 1 + 1 * (y 0).val = (y 0).val; rw [e0]; omega
  | ⟨1, _⟩ => show win1_1.index t 1 * 32 + 1 * (y 1).val = (y 1).val; rw [e1]; omega

/-- The first layer's weights `[32, 16]`. -/
theorem blk1_2_apply (c : Dev nD) (t : Fin cfg1.N) (y : S32x16.Idx) :
    (iblk1 V c 2 t : Vec Ideal S32x16 .f32) y = (V c main_arg5 : S32x16.Idx → EReal) y := by
  obtain ⟨-, -, -, -, e0, e1, -, -, -, -, -, -, -, -, -, -, -, -⟩ := idx_facts1 t
  unfold iblk1
  rw [View.read_apply]
  show V c main_arg5 _ = V c main_arg5 _
  congr 1
  funext a
  apply Fin.ext
  match a with
  | ⟨0, _⟩ => show win1_2.index t 0 * 32 + 1 * (y 0).val = (y 0).val; rw [e0]; omega
  | ⟨1, _⟩ => show win1_2.index t 1 * 16 + 1 * (y 1).val = (y 1).val; rw [e1]; omega

/-- The first layer's bias row `[1, 16]`. -/
theorem blk1_3_apply (c : Dev nD) (t : Fin cfg1.N) (y : S1x16.Idx) :
    (iblk1 V c 3 t : Vec Ideal S1x16 .f32) y = (V c main_v44 : S1x16.Idx → EReal) y := by
  obtain ⟨-, -, -, -, -, -, e0, e1, -, -, -, -, -, -, -, -, -, -⟩ := idx_facts1 t
  unfold iblk1
  rw [View.read_apply]
  show V c main_v44 _ = V c main_v44 _
  congr 1
  funext a
  apply Fin.ext
  match a with
  | ⟨0, _⟩ => show win1_3.index t 0 * 1 + 1 * (y 0).val = (y 0).val; rw [e0]; omega
  | ⟨1, _⟩ => show win1_3.index t 1 * 16 + 1 * (y 1).val = (y 1).val; rw [e1]; omega

/-- The second layer's weights `[16, 8]`. -/
theorem blk1_4_apply (c : Dev nD) (t : Fin cfg1.N) (y : S16x8.Idx) :
    (iblk1 V c 4 t : Vec Ideal S16x8 .f32) y = (V c main_arg7 : S16x8.Idx → EReal) y := by
  obtain ⟨-, -, -, -, -, -, -, -, e0, e1, -, -, -, -, -, -, -, -⟩ := idx_facts1 t
  unfold iblk1
  rw [View.read_apply]
  show V c main_arg7 _ = V c main_arg7 _
  congr 1
  funext a
  apply Fin.ext
  match a with
  | ⟨0, _⟩ => show win1_4.index t 0 * 16 + 1 * (y 0).val = (y 0).val; rw [e0]; omega
  | ⟨1, _⟩ => show win1_4.index t 1 * 8 + 1 * (y 1).val = (y 1).val; rw [e1]; omega

/-- The second layer's bias row `[1, 8]`. -/
theorem blk1_5_apply (c : Dev nD) (t : Fin cfg1.N) (y : S1x8.Idx) :
    (iblk1 V c 5 t : Vec Ideal S1x8 .f32) y = (V c main_v45 : S1x8.Idx → EReal) y := by
  obtain ⟨-, -, -, -, -, -, -, -, -, -, e0, e1, -, -, -, -, -, -⟩ := idx_facts1 t
  unfold iblk1
  rw [View.read_apply]
  show V c main_v45 _ = V c main_v45 _
  congr 1
  funext a
  apply Fin.ext
  match a with
  | ⟨0, _⟩ => show win1_5.index t 0 * 1 + 1 * (y 0).val = (y 0).val; rw [e0]; omega
  | ⟨1, _⟩ => show win1_5.index t 1 * 8 + 1 * (y 1).val = (y 1).val; rw [e1]; omega

/-- The third layer's weights `[8, 10]`. -/
theorem blk1_6_apply (c : Dev nD) (t : Fin cfg1.N) (y : S8x10.Idx) :
    (iblk1 V c 6 t : Vec Ideal S8x10 .f32) y = (V c main_arg9 : S8x10.Idx → EReal) y := by
  obtain ⟨-, -, -, -, -, -, -, -, -, -, -, -, e0, e1, -, -, -, -⟩ := idx_facts1 t
  unfold iblk1
  rw [View.read_apply]
  show V c main_arg9 _ = V c main_arg9 _
  congr 1
  funext a
  apply Fin.ext
  match a with
  | ⟨0, _⟩ => show win1_6.index t 0 * 8 + 1 * (y 0).val = (y 0).val; rw [e0]; omega
  | ⟨1, _⟩ => show win1_6.index t 1 * 10 + 1 * (y 1).val = (y 1).val; rw [e1]; omega

/-- The third layer's bias row `[1, 10]`. -/
theorem blk1_7_apply (c : Dev nD) (t : Fin cfg1.N) (y : S1x10.Idx) :
    (iblk1 V c 7 t : Vec Ideal S1x10 .f32) y = (V c main_v46 : S1x10.Idx → EReal) y := by
  obtain ⟨-, -, -, -, -, -, -, -, -, -, -, -, -, -, e0, e1, -, -⟩ := idx_facts1 t
  unfold iblk1
  rw [View.read_apply]
  show V c main_v46 _ = V c main_v46 _
  congr 1
  funext a
  apply Fin.ext
  match a with
  | ⟨0, _⟩ => show win1_7.index t 0 * 1 + 1 * (y 0).val = (y 0).val; rw [e0]; omega
  | ⟨1, _⟩ => show win1_7.index t 1 * 10 + 1 * (y 1).val = (y 1).val; rw [e1]; omega

/-- What point `t` writes back is block `t` of `headArr`. -/
theorem flushed1_eq (c : Dev nD) (t : Fin cfg1.N) :
    (dat1 V c).flushed 8 t = ((cfg1.win 8).blk t).view.read (Elt Ideal)
      (headArr (V c main_v42) (V c main_v43) (V c main_arg5) (V c main_v44) (V c main_arg7) (V c main_v45) (V c main_arg9) (V c main_v46)) := by
  obtain ⟨-, -, -, -, -, -, -, -, -, -, -, -, -, -, -, -, e8, e9⟩ := idx_facts1 t
  show (cfg1.win 8).cut (grid1.coords t) ((dat1 V c).after 8 t) = _
  rw [after1_8]
  unfold out1_8
  rw [View.canon_unit_zero hz]
  simp only [View.ld_unit_zero (S := S2000x32) hz, View.ld_unit_zero (S := S1x32) hz, View.ld_unit_zero (S := S32x16) hz,
    View.ld_unit_zero (S := S1x16) hz, View.ld_unit_zero (S := S16x8) hz, View.ld_unit_zero (S := S1x8) hz,
    View.ld_unit_zero (S := S8x10) hz, View.ld_unit_zero (S := S1x10) hz]
  funext y
  obtain ⟨r, j, rfl⟩ : ∃ (r : Fin 2000) (j : Fin 10), y = ix2 r j := ⟨y 0, y 1, eq_ix2 y⟩
  rw [View.read_apply]
  have ht : t.val < 50 := t.isLt
  have hrow : 2000 * t.val + r.val < 100000 := by have := r.isLt; omega
  have hemb : ((cfg1.win 8).blk t).view.emb (ix2 r j) = ix2 (⟨2000 * t.val + r.val, hrow⟩ : Fin 100000) j := by
    funext a
    apply Fin.ext
    match a with
    | ⟨0, _⟩ => show win1_8.index t 0 * 2000 + 1 * r.val = 2000 * t.val + r.val; rw [e8]; omega
    | ⟨1, _⟩ => show win1_8.index t 1 * 10 + 1 * j.val = j.val; rw [e9]; omega
  rw [hemb]
  refine (Cert.KernelIdeal.Head.head_apply (iblk1 V c 0 t) (iblk1 V c 1 t) (iblk1 V c 2 t) (iblk1 V c 3 t) (iblk1 V c 4 t)
    (iblk1 V c 5 t) (iblk1 V c 6 t) (iblk1 V c 7 t) r j).trans ?_
  have h0 : (fun k : Fin 32 => ((iblk1 V c 0 t : Vec Ideal S2000x32 .f32) (ix2 r k) : EReal))
      = fun k : Fin 32 => (V c main_v42 : S100000x32.Idx → EReal) (ix2 (⟨2000 * t.val + r.val, hrow⟩ : Fin 100000) k) :=
    funext fun k => ablk_apply V c t r k _ rfl
  have h1 : (fun k : Fin 32 => ((iblk1 V c 1 t : Vec Ideal S1x32 .f32) (ix2 (0 : Fin 1) k) : EReal))
      = fun k : Fin 32 => (V c main_v43 : S1x32.Idx → EReal) (ix2 (0 : Fin 1) k) := funext fun k => blk1_1_apply V c t _
  have h2 : (fun (l : Fin 32) (k : Fin 16) => ((iblk1 V c 2 t : Vec Ideal S32x16 .f32) (ix2 l k) : EReal))
      = fun (l : Fin 32) (k : Fin 16) => (V c main_arg5 : S32x16.Idx → EReal) (ix2 l k) := funext fun l => funext fun k => blk1_2_apply V c t _
  have h3 : (fun k : Fin 16 => ((iblk1 V c 3 t : Vec Ideal S1x16 .f32) (ix2 (0 : Fin 1) k) : EReal))
      = fun k : Fin 16 => (V c main_v44 : S1x16.Idx → EReal) (ix2 (0 : Fin 1) k) := funext fun k => blk1_3_apply V c t _
  have h4 : (fun (l : Fin 16) (k : Fin 8) => ((iblk1 V c 4 t : Vec Ideal S16x8 .f32) (ix2 l k) : EReal))
      = fun (l : Fin 16) (k : Fin 8) => (V c main_arg7 : S16x8.Idx → EReal) (ix2 l k) := funext fun l => funext fun k => blk1_4_apply V c t _
  have h5 : (fun k : Fin 8 => ((iblk1 V c 5 t : Vec Ideal S1x8 .f32) (ix2 (0 : Fin 1) k) : EReal))
      = fun k : Fin 8 => (V c main_v45 : S1x8.Idx → EReal) (ix2 (0 : Fin 1) k) := funext fun k => blk1_5_apply V c t _
  have h6 : (fun (l : Fin 8) (k : Fin 10) => ((iblk1 V c 6 t : Vec Ideal S8x10 .f32) (ix2 l k) : EReal))
      = fun (l : Fin 8) (k : Fin 10) => (V c main_arg9 : S8x10.Idx → EReal) (ix2 l k) := funext fun l => funext fun k => blk1_6_apply V c t _
  have h7 : (fun k : Fin 10 => ((iblk1 V c 7 t : Vec Ideal S1x10 .f32) (ix2 (0 : Fin 1) k) : EReal))
      = fun k : Fin 10 => (V c main_v46 : S1x10.Idx → EReal) (ix2 (0 : Fin 1) k) := funext fun k => blk1_7_apply V c t _
  rw [h0, h1, h2, h3, h4, h5, h6, h7]
  rfl

/-- An index of the result array is in point `t`'s block iff each coordinate is in the block's range on its axis. -/
theorem mem_blk1 (t : Fin cfg1.N) (i : S100000x10.Idx) :
    i ∈ ((cfg1.win 8).blk t).view.set ↔ ∀ a : Fin 2, win1_8.index t a * S2000x10.size a ≤ (i a).val ∧ (i a).val < win1_8.index t a * S2000x10.size a + S2000x10.size a := by
  show i ∈ ((View.whole main_v47).slice (win1_8.rect t)).set ↔ _
  rw [View.set_slice_whole, Rect.mem_set_unit]
  exact Iff.rfl

/-- The result array after region 1: `headArr` of the arrays the region found. -/
theorem final1 (c : Dev nD) : (dat1 V c).arrAt 8 cfg1.N
    = headArr (V c main_v42) (V c main_v43) (V c main_arg5) (V c main_v44) (V c main_arg7) (V c main_v45) (V c main_arg9) (V c main_v46) :=
  (dat1 V c).arrAt_eq_of_cover 8 _ (fun t _ => flushed1_eq V c t) fun i => by
    have hi0 : (i 0).val < 100000 := (i 0).isLt
    have hi1 : (i 1).val < 10 := (i 1).isLt
    have hN : cfg1.N = 50 := rfl
    refine ⟨⟨(i 0).val / 2000, by rw [hN]; omega⟩, flush1_8 _, ?_⟩
    rw [mem_blk1]
    obtain ⟨-, -, -, -, -, -, -, -, -, -, -, -, -, -, -, -, e8, e9⟩ := idx_facts1 ⟨(i 0).val / 2000, by rw [hN]; omega⟩
    intro a
    match a with
    | ⟨0, _⟩ => show win1_8.index _ 0 * 2000 ≤ (i 0).val ∧ (i 0).val < win1_8.index _ 0 * 2000 + 2000; rw [e8]; show (i 0).val / 2000 * 2000 ≤ (i 0).val ∧ (i 0).val < (i 0).val / 2000 * 2000 + 2000; omega
    | ⟨1, _⟩ => show win1_8.index _ 1 * 10 ≤ (i 1).val ∧ (i 1).val < win1_8.index _ 1 * 10 + 10; rw [e9]; omega

end Cert.KernelIdeal.Blocks

end
-- ==== Proof.Glue.lean ====
/-
  The host operations between the two kernel regions, and the reference's same operations.

  Both programs build the self-looped edge lists, the degree normalisation `norm = dinv[src] · dinv[dst]`, gather the
  projected features' rows at `src`, scale them by `norm` and scatter-add them at `dst`.  As a function of the
  projected features `h` and the edge list `e` this is one term, `agg h e`: the reference applies it to its own
  projection, the kernel program to what its first region left.  The chain is never opened: the two programs'
  terms are the same term.  The remaining inputs of the second region are the biases reshaped to one row and
  the weight matrices as launched.
-/
import proofs.«144485_j3616362463494_1_alg».proof.Proof.Gen.KernelIdeal.Frame
import proofs.«144485_j3616362463494_1_alg».proof.Proof.RefRead
import Idealize.ShloMosaic.Lib.StableHlo.Run

set_option maxRecDepth 16384

noncomputable section

namespace Cert.Glue

open Idealize.ShloMosaic Idealize.ShloMosaic.TcCoe Idealize.SL.Sem Idealize.ShloMosaic.StableHlo

variable {F : FTy → Type} [FloatOps F]

/-- The aggregation of projected features `h` over the self-looped, degree-normalised edge list `e`. -/
def agg (h : (⟨Cert.ReferenceIdeal.S100000x32, .f32⟩ : BufTy).Contents (Elt F))
    (e : (⟨Cert.ReferenceIdeal.S2x1600000, .i32⟩ : BufTy).Contents (Elt F)) :
    (⟨Cert.ReferenceIdeal.S100000x32, .f32⟩ : BufTy).Contents (Elt F) :=
  Host.scatterAdd Cert.ReferenceIdeal.scatter_S100000x32_S1700000x1_S1700000x32_1_0_0_1
    (Cert.ReferenceIdeal.ReadP.val_main_v40 (F := F)) (Cert.ReferenceIdeal.ReadP.val_main_v41 (F := F) e)
    (mulf (Host.gather Cert.ReferenceIdeal.gather_S100000x32_S1700000x1_S1700000x32_1_0_n_n_0_1_132 h
        (Cert.ReferenceIdeal.ReadP.val_main_v35 (F := F) e))
      (Cert.ReferenceIdeal.ReadP.val_main_v38 (F := F) e))

/-- The reference's aggregated features are `agg` of its projection. -/
theorem ref_agg (x0 : (⟨Cert.ReferenceIdeal.S100000x100, .f32⟩ : BufTy).Contents (Elt F))
    (x1 : (⟨Cert.ReferenceIdeal.S2x1600000, .i32⟩ : BufTy).Contents (Elt F))
    (x3 : (⟨Cert.ReferenceIdeal.S100x32, .f32⟩ : BufTy).Contents (Elt F)) :
    Cert.ReferenceIdeal.ReadP.val_main_v42 (F := F) x0 x1 x3 = agg (Cert.ReferenceIdeal.ReadP.val_main_v29 (F := F) x0 x3) x1 := rfl

section Kernel

open Cert.KernelIdeal Cert.KernelIdeal.Gen

variable (m : (ℓ : Loc nD τ sig) → Buf (Elt F) ℓ) (ρ : Dev nD → PrngReg)

set_option maxHeartbeats 4000000 in
/-- What the second region finds in its first input array: `agg` of what the first region left in its output array
    and of the edge list as launched. -/
theorem V2_v42 (c : Dev nD) :
    V2 m ρ c main_v42 = agg (V1 m ρ c main_v0) (m ((c : Thread nD τ).loc main_arg1)) := by
  show StableHlo.after hostOps1 (W1 m ρ c) (Proc.devRef .tc main_v42) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [W1_of_ne m ρ c main_arg1 (by decide)]
  rfl

/-- The biases reach the second region reshaped to one row. -/
theorem V2_v43 (c : Dev nD) :
    V2 m ρ c main_v43 = shapeCast S1x32 (m ((c : Thread nD τ).loc main_arg4)) shapeCasts_S32_S1x32 := by
  show StableHlo.after hostOps1 (W1 m ρ c) (Proc.devRef .tc main_v43) = _
  after_results_simp
  rw [W1_of_ne m ρ c main_arg4 (by decide)]
  rfl
theorem V2_v44 (c : Dev nD) :
    V2 m ρ c main_v44 = shapeCast S1x16 (m ((c : Thread nD τ).loc main_arg6)) shapeCasts_S16_S1x16 := by
  show StableHlo.after hostOps1 (W1 m ρ c) (Proc.devRef .tc main_v44) = _
  after_results_simp
  rw [W1_of_ne m ρ c main_arg6 (by decide)]
  rfl
theorem V2_v45 (c : Dev nD) :
    V2 m ρ c main_v45 = shapeCast S1x8 (m ((c : Thread nD τ).loc main_arg8)) shapeCasts_S8_S1x8 := by
  show StableHlo.after hostOps1 (W1 m ρ c) (Proc.devRef .tc main_v45) = _
  after_results_simp
  rw [W1_of_ne m ρ c main_arg8 (by decide)]
  rfl
theorem V2_v46 (c : Dev nD) :
    V2 m ρ c main_v46 = shapeCast S1x10 (m ((c : Thread nD τ).loc main_arg10)) shapeCasts_S10_S1x10 := by
  show StableHlo.after hostOps1 (W1 m ρ c) (Proc.devRef .tc main_v46) = _
  after_results_simp
  rw [W1_of_ne m ρ c main_arg10 (by decide)]
  rfl

/-- The weight matrices reach the second region as launched. -/
theorem V2_arg5 (c : Dev nD) : V2 m ρ c main_arg5 = m ((c : Thread nD τ).loc main_arg5) := by
  show StableHlo.after hostOps1 (W1 m ρ c) (Proc.devRef .tc main_arg5) = _
  after_results_simp
  exact W1_of_ne m ρ c main_arg5 (by decide)
theorem V2_arg7 (c : Dev nD) : V2 m ρ c main_arg7 = m ((c : Thread nD τ).loc main_arg7) := by
  show StableHlo.after hostOps1 (W1 m ρ c) (Proc.devRef .tc main_arg7) = _
  after_results_simp
  exact W1_of_ne m ρ c main_arg7 (by decide)
theorem V2_arg9 (c : Dev nD) : V2 m ρ c main_arg9 = m ((c : Thread nD τ).loc main_arg9) := by
  show StableHlo.after hostOps1 (W1 m ρ c) (Proc.devRef .tc main_arg9) = _
  after_results_simp
  exact W1_of_ne m ρ c main_arg9 (by decide)

end Kernel

end Cert.Glue

end
-- ==== Proof.RefTail.lean ====
/-
  The reference program's stages after the aggregation, read at one entry.

  The projection `x · W_conv` at row `i`, column `j` is the sum over the 100 input features.  The result at row
  `i`, column `j` is `Spec.head` of row `i` of the aggregated features and of the parameters: bias, rectifier, three
  dense layers and the log-softmax all act on a row alone.  The reference takes `max` of the row maximum with `-∞`
  once more, which changes nothing (`Spec.max_start_fold`), and its sums start from the zero word.
-/
import proofs.«144485_j3616362463494_1_alg».proof.Proof.RefRead
import proofs.«144485_j3616362463494_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.Tail

open Cert.ReferenceIdeal Cert.ReferenceIdeal.ReadP Idealize.ShloMosaic Idealize.ShloMosaic.ValueIdx

/-- The projection stage at row `i`, column `j`. -/
theorem proj_apply (x0 : (⟨S100000x100, .f32⟩ : BufTy).Contents (Elt Ideal)) (x3 : (⟨S100x32, .f32⟩ : BufTy).Contents (Elt Ideal))
    (i : Fin 100000) (j : Fin 32) :
    val_main_v29 (F := Ideal) x0 x3 (ix2 i j)
      = Cert.Spec.proj (fun (i : Fin 100000) (k : Fin 100) => (x0 (ix2 i k) : EReal)) (fun (k : Fin 100) (j : Fin 32) => (x3 (ix2 k j) : EReal)) i j := by
  rw [val_main_v29_apply]
  unfold Cert.Spec.proj
  refine Finset.sum_congr rfl fun k _ => ?_
  have el : lidx_main_v29 (ix2 i j) k = ix2 i k :=
    funext fun a => Fin.ext (by match a with | ⟨0, _⟩ => rfl | ⟨1, _⟩ => rfl)
  have er : ridx_main_v29 (ix2 i j) k = ix2 k j :=
    funext fun a => Fin.ext (by match a with | ⟨0, _⟩ => rfl | ⟨1, _⟩ => rfl)
  rw [el, er]

section Row

variable (x0 : (⟨S100000x100, .f32⟩ : BufTy).Contents (Elt Ideal)) (x1 : (⟨S2x1600000, .i32⟩ : BufTy).Contents (Elt Ideal))
  (x3 : (⟨S100x32, .f32⟩ : BufTy).Contents (Elt Ideal)) (x4 : (⟨S32, .f32⟩ : BufTy).Contents (Elt Ideal))
  (x5 : (⟨S32x16, .f32⟩ : BufTy).Contents (Elt Ideal)) (x6 : (⟨S16, .f32⟩ : BufTy).Contents (Elt Ideal))
  (x7 : (⟨S16x8, .f32⟩ : BufTy).Contents (Elt Ideal)) (x8 : (⟨S8, .f32⟩ : BufTy).Contents (Elt Ideal))
  (x9 : (⟨S8x10, .f32⟩ : BufTy).Contents (Elt Ideal)) (x10 : (⟨S10, .f32⟩ : BufTy).Contents (Elt Ideal))

/-- Row `i` after the bias and the first rectifier. -/
private def row0 (i : Fin 100000) : Fin 32 → EReal :=
  Cert.Spec.relu (fun k => (val_main_v42 (F := Ideal) x0 x1 x3 (ix2 i k) : EReal) + (x4 (ix1 k) : EReal))

/-- Row `i` after the first dense layer and its rectifier. -/
private def row1 (i : Fin 100000) : Fin 16 → EReal :=
  Cert.Spec.relu (Cert.Spec.dense (row0 x0 x1 x3 x4 i) (fun (l : Fin 32) (k : Fin 16) => (x5 (ix2 l k) : EReal)) (fun k : Fin 16 => (x6 (ix1 k) : EReal)))

/-- Row `i` after the second dense layer and its rectifier. -/
private def row2 (i : Fin 100000) : Fin 8 → EReal :=
  Cert.Spec.relu (Cert.Spec.dense (row1 x0 x1 x3 x4 x5 x6 i) (fun (l : Fin 16) (k : Fin 8) => (x7 (ix2 l k) : EReal)) (fun k : Fin 8 => (x8 (ix1 k) : EReal)))

/-- The ten logits of row `i`. -/
private def logits (i : Fin 100000) : Fin 10 → EReal :=
  Cert.Spec.dense (row2 x0 x1 x3 x4 x5 x6 x7 x8 i) (fun (l : Fin 8) (k : Fin 10) => (x9 (ix2 l k) : EReal)) (fun k : Fin 10 => (x10 (ix1 k) : EReal))

/-- The bias is added to the aggregated features entry by entry. -/
private theorem v45_at (i : Fin 100000) (k : Fin 32) :
    val_main_v45 (F := Ideal) x0 x1 x3 x4 (ix2 i k)
      = (val_main_v42 (F := Ideal) x0 x1 x3 (ix2 i k) : EReal) + (x4 (ix1 k) : EReal) := by
  rw [val_main_v45_apply, val_main_v44_apply, val_main_v43_apply]
  have e : idx_main_v43 (idx_main_v44 (ix2 i k)) = ix1 k :=
    funext fun a => Fin.ext (by match a with | ⟨0, _⟩ => rfl)
  rw [e]; rfl

/-- The first rectifier. -/
private theorem v46_at (i : Fin 100000) (k : Fin 32) :
    val_main_v46 (F := Ideal) x0 x1 x3 x4 (ix2 i k) = row0 x0 x1 x3 x4 i k := by
  rw [val_main_v46_apply, val_main_call0_v0_apply, val_main_call0_cst_apply, v45_at]; rfl

/-- The first dense layer: the contraction runs over the 32 features of the row. -/
private theorem v50_at (i : Fin 100000) (j : Fin 16) :
    val_main_v50 (F := Ideal) x0 x1 x3 x4 x5 x6 (ix2 i j)
      = Cert.Spec.dense (row0 x0 x1 x3 x4 i) (fun (l : Fin 32) (k : Fin 16) => (x5 (ix2 l k) : EReal)) (fun k : Fin 16 => (x6 (ix1 k) : EReal)) j := by
  rw [val_main_v50_apply, val_main_v47_apply, val_main_v49_apply, val_main_v48_apply]
  have e : idx_main_v48 (idx_main_v49 (ix2 i j)) = ix1 j :=
    funext fun a => Fin.ext (by match a with | ⟨0, _⟩ => rfl)
  rw [e, Ideal.addf_def]
  unfold Cert.Spec.dense
  refine congrArg (· + (x6 (ix1 j) : EReal)) (Finset.sum_congr rfl fun k _ => ?_)
  have el : lidx_main_v47 (ix2 i j) k = ix2 i k :=
    funext fun a => Fin.ext (by match a with | ⟨0, _⟩ => rfl | ⟨1, _⟩ => rfl)
  have er : ridx_main_v47 (ix2 i j) k = ix2 k j :=
    funext fun a => Fin.ext (by match a with | ⟨0, _⟩ => rfl | ⟨1, _⟩ => rfl)
  rw [el, er, v46_at]

/-- The second rectifier. -/
private theorem v51_at (i : Fin 100000) (k : Fin 16) :
    val_main_v51 (F := Ideal) x0 x1 x3 x4 x5 x6 (ix2 i k) = row1 x0 x1 x3 x4 x5 x6 i k := by
  rw [val_main_v51_apply, val_main_call1_v0_apply, val_main_call1_cst_apply, v50_at]; rfl

/-- The second dense layer. -/
private theorem v55_at (i : Fin 100000) (j : Fin 8) :
    val_main_v55 (F := Ideal) x0 x1 x3 x4 x5 x6 x7 x8 (ix2 i j)
      = Cert.Spec.dense (row1 x0 x1 x3 x4 x5 x6 i) (fun (l : Fin 16) (k : Fin 8) => (x7 (ix2 l k) : EReal)) (fun k : Fin 8 => (x8 (ix1 k) : EReal)) j := by
  rw [val_main_v55_apply, val_main_v52_apply, val_main_v54_apply, val_main_v53_apply]
  have e : idx_main_v53 (idx_main_v54 (ix2 i j)) = ix1 j :=
    funext fun a => Fin.ext (by match a with | ⟨0, _⟩ => rfl)
  rw [e, Ideal.addf_def]
  unfold Cert.Spec.dense
  refine congrArg (· + (x8 (ix1 j) : EReal)) (Finset.sum_congr rfl fun k _ => ?_)
  have el : lidx_main_v52 (ix2 i j) k = ix2 i k :=
    funext fun a => Fin.ext (by match a with | ⟨0, _⟩ => rfl | ⟨1, _⟩ => rfl)
  have er : ridx_main_v52 (ix2 i j) k = ix2 k j :=
    funext fun a => Fin.ext (by match a with | ⟨0, _⟩ => rfl | ⟨1, _⟩ => rfl)
  rw [el, er, v51_at]

/-- The third rectifier. -/
private theorem v56_at (i : Fin 100000) (k : Fin 8) :
    val_main_v56 (F := Ideal) x0 x1 x3 x4 x5 x6 x7 x8 (ix2 i k) = row2 x0 x1 x3 x4 x5 x6 x7 x8 i k := by
  rw [val_main_v56_apply, val_main_call2_v0_apply, val_main_call2_cst_apply, v55_at]; rfl

/-- The third dense layer gives the logits. -/
private theorem v60_at (i : Fin 100000) (j : Fin 10) :
    val_main_v60 (F := Ideal) x0 x1 x3 x4 x5 x6 x7 x8 x9 x10 (ix2 i j) = logits x0 x1 x3 x4 x5 x6 x7 x8 x9 x10 i j := by
  rw [val_main_v60_apply, val_main_v57_apply, val_main_v59_apply, val_main_v58_apply]
  have e : idx_main_v58 (idx_main_v59 (ix2 i j)) = ix1 j :=
    funext fun a => Fin.ext (by match a with | ⟨0, _⟩ => rfl)
  rw [e, Ideal.addf_def]
  unfold logits Cert.Spec.dense
  refine congrArg (· + (x10 (ix1 j) : EReal)) (Finset.sum_congr rfl fun k _ => ?_)
  have el : lidx_main_v57 (ix2 i j) k = ix2 i k :=
    funext fun a => Fin.ext (by match a with | ⟨0, _⟩ => rfl | ⟨1, _⟩ => rfl)
  have er : ridx_main_v57 (ix2 i j) k = ix2 k j :=
    funext fun a => Fin.ext (by match a with | ⟨0, _⟩ => rfl | ⟨1, _⟩ => rfl)
  rw [el, er, v56_at]

/-- A fold of the family's `maximumf` is the fold of `max`; start values and entries may be replaced by equal ones. -/
private theorem fold_max_congr {q : Nat} (c c' : EReal) (f g : Fin q → EReal) (hc : c = c') (hfg : ∀ k, f k = g k) :
    (Finset.univ : Finset (Fin q)).fold (FloatOps.maximumf (F := Ideal) (φ := .f32)) c f
      = (Finset.univ : Finset (Fin q)).fold max c' g := by
  subst hc
  rw [show f = g from funext hfg]
  rfl

/-- The reduction of a ten-column array by `maximumf` from the `-∞` word along its columns, read at row `i`: the fold of
    `max` from that word over the row's ten entries. -/
private theorem fold_at (y : (⟨S100000x10, .f32⟩ : BufTy).Contents (Elt Ideal)) (i : Fin 100000) :
    Host.reduce (FloatOps.maximumf (F := Ideal) (φ := .f32)) y (val_main_call3_cst (F := Ideal)) Cert.ReferenceIdeal.Gen.reducesTo_S100000x10_S100000_d1 Cert.ReferenceIdeal.Gen.h_S_ (ix1 i)
      = (Finset.univ : Finset (Fin 10)).fold max Cert.Spec.negInf32 (fun k : Fin 10 => (y (ix2 i k) : EReal)) := by
  refine (Host.reduce_eq_fold_single _ _ _ Cert.ReferenceIdeal.Gen.reducesTo_S100000x10_S100000_d1 (by decide) Cert.ReferenceIdeal.Gen.h_S_ (ix1 i)).trans ?_
  exact fold_max_congr (q := 10) _ _ _ _ (val_main_call3_cst_apply _)
    (fun k => congrArg y (funext fun a => Fin.ext (by match a with | ⟨0, _⟩ => rfl | ⟨1, _⟩ => rfl)))

/-- The reference's row maximum: the fold of `max` from `-∞` over the ten logits; the further `max` with `-∞` changes nothing. -/
private theorem rowMax_at (i : Fin 100000) :
    val_main_call3_v2 (F := Ideal) x0 x1 x3 x4 x5 x6 x7 x8 x9 x10 (ix1 i)
      = Cert.Spec.rowMax (fun k : Fin 10 => (val_main_v60 (F := Ideal) x0 x1 x3 x4 x5 x6 x7 x8 x9 x10 (ix2 i k) : EReal)) := by
  rw [val_main_call3_v2_apply, val_main_call3_v1_apply, val_main_call3_cst_0_apply]
  unfold val_main_call3_v0
  generalize val_main_v60 (F := Ideal) x0 x1 x3 x4 x5 x6 x7 x8 x9 x10 = y
  rw [fold_at y i]
  exact Cert.Spec.max_start_fold Cert.Spec.negInf32 (fun k : Fin 10 => (y (ix2 i k) : EReal))

/-- A logit less the row maximum. -/
private theorem shifted_at (i : Fin 100000) (j : Fin 10) :
    val_main_call3_v5 (F := Ideal) x0 x1 x3 x4 x5 x6 x7 x8 x9 x10 (ix2 i j)
      = (val_main_v60 (F := Ideal) x0 x1 x3 x4 x5 x6 x7 x8 x9 x10 (ix2 i j) : EReal)
          - Cert.Spec.rowMax (fun k : Fin 10 => (val_main_v60 (F := Ideal) x0 x1 x3 x4 x5 x6 x7 x8 x9 x10 (ix2 i k) : EReal)) := by
  rw [val_main_call3_v5_apply, val_main_call3_v4_apply, val_main_call3_v3_apply]
  have e : idx_main_call3_v3 (idx_main_call3_v4 (ix2 i j)) = ix1 i :=
    funext fun a => Fin.ext (by match a with | ⟨0, _⟩ => rfl)
  rw [e, rowMax_at]; rfl

/-- The logarithm of the row's sum of exponentials; the sum starts from the zero word, which is `0`. -/
private theorem logSum_at (i : Fin 100000) (j : Fin 10) :
    val_main_call3_v10 (F := Ideal) x0 x1 x3 x4 x5 x6 x7 x8 x9 x10 (ix2 i j)
      = Ideal.log (∑ k : Fin 10, Ideal.exp ((val_main_v60 (F := Ideal) x0 x1 x3 x4 x5 x6 x7 x8 x9 x10 (ix2 i k) : EReal)
          - Cert.Spec.rowMax (fun k : Fin 10 => (val_main_v60 (F := Ideal) x0 x1 x3 x4 x5 x6 x7 x8 x9 x10 (ix2 i k) : EReal)))) := by
  rw [val_main_call3_v10_apply, val_main_call3_v9_apply, val_main_call3_v8_apply]
  have e : idx_main_call3_v8 (idx_main_call3_v10 (ix2 i j)) = ix1 i :=
    funext fun a => Fin.ext (by match a with | ⟨0, _⟩ => rfl)
  rw [e, val_main_call3_v7_apply, val_main_call3_cst_1_apply, Ideal.hostUnary_log_def]
  refine congrArg Ideal.log ?_
  refine (congrArg (· + _) Ideal.ofBits_zero_f32).trans ?_
  rw [zero_add]
  refine Finset.sum_congr rfl fun k _ => ?_
  have ek : idx_main_call3_v7 (ix1 i) k = ix2 i k :=
    funext fun a => Fin.ext (by match a with | ⟨0, _⟩ => rfl | ⟨1, _⟩ => rfl)
  rw [ek, val_main_call3_v6_apply, shifted_at, Ideal.hostUnary_exp_def]

/-- The log-softmax stage at one entry, in terms of the row of logits. -/
private theorem v61_at (i : Fin 100000) (j : Fin 10) :
    val_main_v61 (F := Ideal) x0 x1 x3 x4 x5 x6 x7 x8 x9 x10 (ix2 i j)
      = Cert.Spec.logSoftmax (fun k : Fin 10 => (val_main_v60 (F := Ideal) x0 x1 x3 x4 x5 x6 x7 x8 x9 x10 (ix2 i k) : EReal)) j := by
  rw [val_main_v61_apply, shifted_at, logSum_at]; rfl

end Row

/-- The result at row `i`, column `j`: the head of row `i` of the aggregated features (`val_main_v42`, the second
    scatter-add's result). -/
theorem out_apply (x0 : (⟨S100000x100, .f32⟩ : BufTy).Contents (Elt Ideal)) (x1 : (⟨S2x1600000, .i32⟩ : BufTy).Contents (Elt Ideal))
    (x3 : (⟨S100x32, .f32⟩ : BufTy).Contents (Elt Ideal)) (x4 : (⟨S32, .f32⟩ : BufTy).Contents (Elt Ideal))
    (x5 : (⟨S32x16, .f32⟩ : BufTy).Contents (Elt Ideal)) (x6 : (⟨S16, .f32⟩ : BufTy).Contents (Elt Ideal))
    (x7 : (⟨S16x8, .f32⟩ : BufTy).Contents (Elt Ideal)) (x8 : (⟨S8, .f32⟩ : BufTy).Contents (Elt Ideal))
    (x9 : (⟨S8x10, .f32⟩ : BufTy).Contents (Elt Ideal)) (x10 : (⟨S10, .f32⟩ : BufTy).Contents (Elt Ideal))
    (i : Fin 100000) (j : Fin 10) :
    val_main_v61 (F := Ideal) x0 x1 x3 x4 x5 x6 x7 x8 x9 x10 (ix2 i j)
      = Cert.Spec.head (fun k : Fin 32 => (val_main_v42 (F := Ideal) x0 x1 x3 (ix2 i k) : EReal)) (fun k : Fin 32 => (x4 (ix1 k) : EReal))
          (fun (l : Fin 32) (k : Fin 16) => (x5 (ix2 l k) : EReal)) (fun k : Fin 16 => (x6 (ix1 k) : EReal))
          (fun (l : Fin 16) (k : Fin 8) => (x7 (ix2 l k) : EReal)) (fun k : Fin 8 => (x8 (ix1 k) : EReal))
          (fun (l : Fin 8) (k : Fin 10) => (x9 (ix2 l k) : EReal)) (fun k : Fin 10 => (x10 (ix1 k) : EReal)) j := by
  rw [v61_at]
  exact congrArg (fun z => Cert.Spec.logSoftmax z j) (funext fun k => v60_at x0 x1 x3 x4 x5 x6 x7 x8 x9 x10 i k)

end Cert.ReferenceIdeal.Tail

end
-- ==== Proof.Bridge.lean ====
/-
  The kernel program's result array is the reference's last stage of the launched arguments.

  After the second region the result array is `headArr` of what that region found (Blocks): row by row, the head of
  the aggregated features.  What it found: the aggregation `agg` of the first region's output and the edge list, the
  biases reshaped to one row, the weights as launched (Glue).  The first region's output is the projection
  `x · W_conv` entry by entry (Blocks), which is the reference's own projection stage (RefTail), so the aggregated
  features are the reference's; and the reference's result is the head of those, row by row (RefTail).
-/
import proofs.«144485_j3616362463494_1_alg».proof.Proof.Blocks
import proofs.«144485_j3616362463494_1_alg».proof.Proof.Glue
import proofs.«144485_j3616362463494_1_alg».proof.Proof.RefTail
import Idealize.ShloMosaic.Lib.ValueLayout

set_option maxRecDepth 16384

noncomputable section

namespace Cert.Bridge

open Cert.KernelIdeal Cert.KernelIdeal.Gen Idealize.ShloMosaic Idealize.ShloMosaic.TcCoe Idealize.SL.Sem
open Idealize.ShloMosaic.ValueIdx
open Cert.ReferenceIdeal.ReadP (val_main_v29 val_main_v42 val_main_v61)

variable (m : (ℓ : Loc nD τ sig) → Buf (Elt Ideal) ℓ) (ρ : Dev nD → PrngReg)

/-- The reference's projection stage is the array `projArr`. -/
theorem ref_proj (x0 : S100000x100.Idx → EReal) (x3 : S100x32.Idx → EReal) :
    val_main_v29 (F := Ideal) x0 x3 = Cert.KernelIdeal.Blocks.projArr x0 x3 := by
  funext i
  obtain ⟨p, q, rfl⟩ : ∃ (p : Fin 100000) (q : Fin 32), i = ix2 p q := ⟨i 0, i 1, eq_ix2 i⟩
  exact Cert.ReferenceIdeal.Tail.proj_apply x0 x3 p q

/-- What the first region leaves in its output array is the reference's projection of the launched `x` and `W_conv`. -/
theorem V1_v0 (c : Dev nD) :
    V1 m ρ c main_v0 = val_main_v29 (F := Ideal) (m ((c : Thread nD τ).loc main_arg0)) (m ((c : Thread nD τ).loc main_arg3)) := by
  rw [ref_proj]
  exact (W1_arr m ρ c 2).trans (Cert.KernelIdeal.Blocks.final0 (V0 m ρ) c)

/-- So the second region finds the reference's aggregated features in its first input array. -/
theorem V2_agg (c : Dev nD) :
    V2 m ρ c main_v42 = val_main_v42 (F := Ideal) (m ((c : Thread nD τ).loc main_arg0)) (m ((c : Thread nD τ).loc main_arg1))
      (m ((c : Thread nD τ).loc main_arg3)) := by
  rw [Cert.Glue.V2_v42, V1_v0, ← Cert.Glue.ref_agg]

/-- THE KERNEL PROGRAM'S RESULT: the reference's last stage of the launched arguments. -/
theorem kernel_result (c : Dev nD) :
    (dat1 (V2 m ρ) c).arrAt 8 cfg1.N
      = val_main_v61 (F := Ideal) (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) := by
  rw [Cert.KernelIdeal.Blocks.final1 (V2 m ρ) c, V2_agg, Cert.Glue.V2_v43, Cert.Glue.V2_v44, Cert.Glue.V2_v45, Cert.Glue.V2_v46,
    Cert.Glue.V2_arg5, Cert.Glue.V2_arg7, Cert.Glue.V2_arg9]
  funext i
  obtain ⟨p, q, rfl⟩ : ∃ (p : Fin 100000) (q : Fin 10), i = ix2 p q := ⟨i 0, i 1, eq_ix2 i⟩
  rw [Cert.ReferenceIdeal.Tail.out_apply]
  show Cert.Spec.head _ _ _ _ _ _ _ _ q = Cert.Spec.head _ _ _ _ _ _ _ _ q
  simp only [shapeCast_a_1a_apply]

end Cert.Bridge

end
-- ==== Proof.lean ====
/-
  A graph-convolution network's forward pass: project the node features (`x · W_conv`), aggregate them over the
  self-looped, degree-normalised edge list, then per node add the bias, rectify, apply three dense layers (a
  rectifier after the first two) and take the log-softmax of the ten logits.

  The kernel program does the projection and the per-node head in two tiled kernels (50 row blocks of 2000 nodes each)
  with the aggregation between them on the host; the reference does everything on the host.  On the extended reals the
  bf16 casts are the identity and a block product into a zero accumulator is the plain sum, so:
    * each row block of the projection is the same rows of the whole product (Proof/Blocks.lean, Proof/KernelHead.lean);
    * the aggregation is one and the same term of the projected features and the edge list in both programs
      (Proof/Glue.lean), never opened;
    * the head acts on each node's row alone, so a row block of it is the same rows of the whole
      (Proof/Spec.lean, Proof/KernelHead.lean, Proof/RefTail.lean); the reference's extra `max` with `-∞` changes nothing.
  Hence both programs' result arrays are one function of the arguments (Proof/Bridge.lean).  No finiteness is needed:
  only re-tiling, and the two sides carry the same float words.
-/
import proofs.«144485_j3616362463494_1_alg».proof.Defs
import proofs.«144485_j3616362463494_1_alg».proof.Proof.Gen.Kernel
import proofs.«144485_j3616362463494_1_alg».proof.Proof.Gen.Kernel.Skeleton
import proofs.«144485_j3616362463494_1_alg».proof.Proof.Gen.Kernel.Launch
import proofs.«144485_j3616362463494_1_alg».proof.Proof.Gen.Kernel.Points
import proofs.«144485_j3616362463494_1_alg».proof.Proof.Gen.Kernel.Frame
import proofs.«144485_j3616362463494_1_alg».proof.Proof.Gen.KernelIdeal
import proofs.«144485_j3616362463494_1_alg».proof.Proof.Gen.KernelIdeal.Skeleton
import proofs.«144485_j3616362463494_1_alg».proof.Proof.Gen.KernelIdeal.Launch
import proofs.«144485_j3616362463494_1_alg».proof.Proof.Gen.KernelIdeal.Points
import proofs.«144485_j3616362463494_1_alg».proof.Proof.Gen.KernelIdeal.Frame
import proofs.«144485_j3616362463494_1_alg».proof.Proof.Gen.ReferenceIdeal
import proofs.«144485_j3616362463494_1_alg».proof.Proof.Gen.Pre_finite_inputs
import proofs.«144485_j3616362463494_1_alg».proof.Proof.RefRun
import proofs.«144485_j3616362463494_1_alg».proof.Proof.RefRead
import proofs.«144485_j3616362463494_1_alg».proof.Proof.RunValue
import proofs.«144485_j3616362463494_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the same result array: the kernel program's is the
    reference's last stage of the arguments (`Bridge.kernel_result`), and so is the reference's own (its run). -/
theorem algebraic : Cert.algebraic_KernelIdeal_ReferenceIdeal := by
  intro m ρ m' ρ' _ hagree
  refine ⟨fun c => (Cert.KernelIdeal.Gen.dat1 (Cert.KernelIdeal.Gen.V2 m ρ) c).arrAt 8 Cert.KernelIdeal.cfg1.N,
    Cert.KernelIdeal.GenV.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, -, h3, h4, h5, h6, h7, h8, h9, h10⟩ := hagree c
  rw [Cert.ReferenceIdeal.ReadP.val_main_v61_eq]
  beta_reduce
  rw [Cert.Bridge.kernel_result m ρ c, h0, h1, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
